-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v17 : BitVec 1 := Scalar.cmpi .eq arg2 c1_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .f32 = 32 ∨ (Rect.block (s := S8192x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .f32 = 32 ∨ (Rect.block (s := S4096x4096) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Binarize.lean ====
/-
  The weight's binarisation, on the extended reals.

  Both programs replace every weight entry `w` by `1` where `w` is above zero and by `0` elsewhere. The
  reference spells it `sign (max 0 w)`: clamping from below at zero sends everything not above zero to zero,
  whose sign is zero, and leaves everything above zero where it is, whose sign is one (the top element
  included). The kernel spells it as a selection between the two constants `1` and `0` on the comparison
  `w > 0`. Both are the function `bin` below at EVERY extended real, so the bridge never needs finiteness.
-/
import Idealize.ShloMosaic.PureOps.Ideal
import Idealize.ShloMosaic.PureOps.Ideal.Laws

noncomputable section

namespace Cert.Binarize

open Idealize.ShloMosaic

/-- The binarised weight: one above zero, zero elsewhere. -/
def bin (w : EReal) : EReal := if 0 < w then 1 else 0

/-- Clamping at zero from below and then taking the sign is the binarisation, at every extended real. -/
theorem sign_max_zero (w : EReal) : Ideal.sign (max 0 w) = bin w := by
  unfold bin
  by_cases h : 0 < w
  · rw [if_pos h, max_eq_right h.le, Ideal.sign_of_pos h]
  · rw [if_neg h, max_eq_left (not_lt.mp h), Ideal.sign_zero]

/-- The sixteen-bit pattern of one denotes one. -/
theorem one_bf16 : Ideal.ofBits .bf16 0x3F80#16 = 1 := by
  simp [Ideal.ofBits, Ideal.ieee, -EReal.coe_mul]; norm_num

/-- The sixteen-bit pattern of zero denotes zero. -/
theorem zero_bf16 : Ideal.ofBits .bf16 0x0000#16 = 0 := by
  simp [Ideal.ofBits, Ideal.ieee]

/-- Selecting between the constants one and zero on the comparison `w > 0` is the binarisation. -/
theorem select_gt_zero (w : EReal) :
    Scalar.select (Ideal.cmp .ogt w (Ideal.ofBits .f32 0x00000000#32))
      (Ideal.ofBits .bf16 0x3F80#16) (Ideal.ofBits .bf16 0x0000#16) = bin w := by
  rw [Ideal.ofBits_zero_f32, one_bf16, zero_bf16]
  unfold bin Scalar.select Ideal.cmp
  by_cases h : 0 < w
  · simp [h]
  · simp [h]

end Cert.Binarize

end
-- ==== Proof.Spec.lean ====
/-
  What both programs compute, as one function of the three argument arrays.

  With `X` the 8192 × 4096 input, `W` the 4096 × 4096 weight (stored output-feature first) and `b` the bias,
  the result at row `n` and output feature `o` is

      G n o = (∑ k < 4096, X n k · bin (W o k)) + b o

  on the extended reals, `bin` the binarisation (one above zero, zero elsewhere). The reference contracts the
  whole axis `k` at once. The kernel contracts it in two halves of 2048, the first into an accumulator it
  has just set to zero, the second on top of that, and adds the bias at the end: at one entry it computes
  `((0 + ∑ over the low half) + ∑ over the high half) + b o`. A sum over 4096 = 2048 + 2048 indices is the
  sum over the low half plus the sum over the high half in any commutative monoid, and `0 + x = x`, so the
  two agree at every extended real: no finiteness is needed.
-/
import Idealize.ShloMosaic.PureOps.Ideal
import Idealize.ShloMosaic.Lib.ValueIdx
import proofs.«107012_j21861383537186_1_alg».proof.Proof.Binarize

noncomputable section

namespace Cert.Spec

open Idealize.ShloMosaic Idealize.ShloMosaic.ValueIdx Cert.Binarize

/-- The input's shape, the weight's, and the bias's. -/
abbrev SX : Shape := ⟨2, ![8192, 4096]⟩
abbrev SW : Shape := ⟨2, ![4096, 4096]⟩
abbrev SB : Shape := ⟨1, ![4096]⟩

/-- Entry `(n, k)` of the input and entry `(o, k)` of the weight, from their coordinates. -/
abbrev xAt (n : Fin 8192) (k : Fin 4096) : SX.Idx := ix2 n k
abbrev wAt (o : Fin 4096) (k : Fin 4096) : SW.Idx := ix2 o k
abbrev bAt (o : Fin 4096) : SB.Idx := ix1 o
/-- Entry `(n, o)` of the result, which has the input's shape. -/
abbrev outAt (n : Fin 8192) (o : Fin 4096) : SX.Idx := ix2 n o

/-- One term of the contraction: the input entry times the binarised weight entry. -/
def term (X : SX.Idx → EReal) (W : SW.Idx → EReal) (n : Fin 8192) (o : Fin 4096) (k : Fin 4096) : EReal :=
  X (xAt n k) * bin (W (wAt o k))

/-- The result array: the input times the transposed binarised weight, plus the bias along the rows. -/
def G (X : SX.Idx → EReal) (W : SW.Idx → EReal) (b : SB.Idx → EReal) : SX.Idx → EReal :=
  fun i => (∑ k : Fin 4096, term X W (i 0) (i 1) k) + b (bAt (i 1))

/-- The contraction index of the low half and of the high half. -/
abbrev lo (r : Fin 2048) : Fin 4096 := ⟨r.val, by omega⟩
abbrev hi (r : Fin 2048) : Fin 4096 := ⟨2048 + r.val, by omega⟩

/-- A sum over the 4096 contraction indices is the sum over the low half plus the sum over the high half. -/
theorem sum_halves {M : Type} [AddCommMonoid M] (f : Fin 4096 → M) :
    ∑ k : Fin 4096, f k = ∑ r : Fin 2048, f (lo r) + ∑ r : Fin 2048, f (hi r) :=
  Fin.sum_univ_add (a := 2048) (b := 2048) f

/-- One entry as the kernel accumulates it — zero, plus the low half, plus the high half, plus the bias — is
    the entry of `G`. -/
theorem entry_eq (X : SX.Idx → EReal) (W : SW.Idx → EReal) (b : SB.Idx → EReal) (n : Fin 8192) (o : Fin 4096) :
    ((0 + ∑ r : Fin 2048, term X W n o (lo r)) + ∑ r : Fin 2048, term X W n o (hi r)) + b (bAt o)
      = G X W b (outAt n o) := by
  unfold G
  rw [zero_add, sum_halves (term X W n o)]

end Cert.Spec

end
-- ==== Proof.RefIsSpec.lean ====
/-
  The reference computes `G`.

  Read at an index, the reference's last stage is the sum over the whole contraction axis of the input entry
  times the sign of the weight entry clamped at zero from below — the weight read through the transpose, so
  at (output feature, k) — plus the bias at the output feature, read through its two broadcasts. Clamping at
  zero and taking the sign is the binarisation, so this is `G`.
-/
import proofs.«107012_j21861383537186_1_alg».proof.Proof.Gen.ReferenceIdeal.Read
import proofs.«107012_j21861383537186_1_alg».proof.Proof.Spec

noncomputable section

namespace Cert.RefIsSpec

open Idealize.ShloMosaic Idealize.ShloMosaic.ValueIdx Cert.ReferenceIdeal Cert.ReferenceIdeal.Read Cert.Spec Cert.Binarize

/-- The input entry the contraction reads at result index `i` and contraction index `k`. -/
theorem lidx_eq (i : S8192x4096.Idx) (k : Fin 4096) : lidx_main_v3 i k = xAt (i 0) k :=
  funext fun a => Fin.ext (by match a with | ⟨0, _⟩ => rfl | ⟨1, _⟩ => rfl)

/-- The weight entry it reads, through the transpose: (output feature, k). -/
theorem ridx_eq (i : S8192x4096.Idx) (k : Fin 4096) : idx_main_v2 (ridx_main_v3 i k) = wAt (i 1) k :=
  funext fun a => Fin.ext (by match a with | ⟨0, _⟩ => rfl | ⟨1, _⟩ => rfl)

/-- The bias entry the two broadcasts read: the output feature. -/
theorem bidx_eq (i : S8192x4096.Idx) : idx_main_v4 (idx_main_v5 i) = bAt (i 1) :=
  funext fun a => Fin.ext (by match a with | ⟨0, _⟩ => rfl)

/-- The reference's result, as a function of the three arguments, is `G`. -/
theorem ref_eq (x0 : S8192x4096.Idx → EReal) (x1 : S4096x4096.Idx → EReal) (x2 : S4096.Idx → EReal) :
    val_main_v6 (F := Ideal) x0 x1 x2 = G x0 x1 x2 := by
  funext i
  rw [val_main_v6_apply, val_main_v3_apply, val_main_v5_apply, val_main_v4_apply]
  simp only [val_main_v2_apply, val_main_v1_apply, val_main_v0_apply, val_main_call0_v1_apply,
    val_main_call0_v0_apply, val_main_cst_apply, lidx_eq, ridx_eq, bidx_eq, Ideal.hostUnary_sign_def,
    Ideal.maximumf_def, Ideal.addf_def, Ideal.ofBits_def, Ideal.ofBits_zero_f32, sign_max_zero]
  rfl

end Cert.RefIsSpec

end
-- ==== Proof.Pieces.lean ====
/-
  What one grid point leaves behind, as values.

  A point whose contraction coordinate is 0 sets the accumulator to zero, reads it back and adds its half
  product, so it leaves `0 + x · bin(w)ᵀ` there and stores nothing in the output block. A point whose
  contraction coordinate is 1 adds its half product to what the point before left in the accumulator, then
  reads the accumulator back and stores it, plus the bias row, as the output block. Each statement holds at
  any float instance: it only says which stored value is read back where.
-/
import proofs.«107012_j21861383537186_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- The offsets of every access of the body: the origin. -/
theorem origin : (![0, 0] : Fin 2 → Nat) = fun _ => 0 := funext fun a => by fin_cases a <;> rfl

/-- The half product added to an accumulator: the body's arithmetic between its loads and its store of the
    accumulator, over the input block `x`, the weight block `w` and the accumulator's contents `acc`. -/
abbrev accumulate (x w : Vec F S1024x2048 .f32) (acc : Vec F S1024x1024 .f32) : Vec F S1024x1024 .f32 :=
  k0_pay2 x w acc

/-- The accumulator after a point of contraction coordinate 0: the half product added to the zero block. -/
theorem scratch_first (c : Dev nD) (i : grid0.Coords) (a3 : Memref sig .tc .vmem S1024x2048 .f32) (h3 : a3.IsWhole)
    (a4 : Memref sig .tc .vmem S1024x2048 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x2048 .f32) (x2 : Vec F S1x1024 .f32) :
    sout0_A_0 c i a3 h3 a4 h4 a5 h5 a6 h6 a7 h7 hc0 hc1 x0 x1 x2 = accumulate x0 x1 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x2048) origin]

/-- The accumulator after a point of contraction coordinate 1: the half product added to what it held. -/
theorem scratch_second (c : Dev nD) (i : grid0.Coords) (a3 : Memref sig .tc .vmem S1024x2048 .f32) (h3 : a3.IsWhole)
    (a4 : Memref sig .tc .vmem S1024x2048 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x2048 .f32) (x2 : Vec F S1x1024 .f32)
    (xs : Vec F S1024x1024 .f32) :
    sout0_B_0 c i a3 h3 a4 h4 a5 h5 a6 h6 a7 h7 hc0 hc1 x0 x1 x2 xs = accumulate x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero origin]
  simp only [View.readAt_eq_ld, h3.read_unread, h4.read_unread, h7.read_unread,
    View.ld_unit_zero (S := S1024x2048) origin, View.ld_unit_zero (S := S1024x1024) origin]

/-- The output block a point of contraction coordinate 1 stores: the updated accumulator plus the bias row. -/
theorem output_second (c : Dev nD) (i : grid0.Coords) (a3 : Memref sig .tc .vmem S1024x2048 .f32) (h3 : a3.IsWhole)
    (a4 : Memref sig .tc .vmem S1024x2048 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x2048 .f32) (x2 : Vec F S1x1024 .f32)
    (xs : Vec F S1024x1024 .f32) :
    out0_B_3 c i a3 h3 a4 h4 a5 h5 a6 h6 a7 h7 hc0 hc1 x0 x1 x2 xs = k0_pay3 (accumulate x0 x1 xs) x2 := by
  unfold out0_B_3
  rw [View.read_writes_eq_canon _ _ _ (cover0_B_3 c i a3 h3 a4 h4 a5 h5 a6 h6 a7 h7 hc0 hc1 x0 x1 x2 xs)]
  unfold kernelRun0_B
  dsimp only
  sl_unfold_words
  rw [View.canon_unit_zero origin]
  simp only [View.readAt_eq_ld, h3.read_unread, h4.read_unread, h5.read_unread, h7.read_unread,
    View.readCov_unit_zero (S := S1024x1024) _ origin,
    View.ld_unit_zero (S := S1024x2048) origin, View.ld_unit_zero (S := S1024x1024) origin,
    View.ld_unit_zero (S := S1x1024) origin]

end Cert.KernelIdeal.Pieces

end
-- ==== Proof.Payload.lean ====
/-
  The body's arithmetic, read at one entry, on the extended reals.

  For an input block `x` and a weight block `w` (both 1024 × 2048) the matrix product contracts the second
  axis of both, so its entry `(p, q)` is the sum over `r < 2048` of `x p r` times the second operand at
  `(q, r)`; the second operand is the selection between one and zero on `w > 0`, the binarised weight; the
  change of the input's format is the identity; the product's own accumulator is the zero block, which adds
  nothing. So one accumulation step adds `∑ r, x p r · bin (w q r)` to the accumulator's entry. The final
  store adds the bias row's entry `q` to every row.
-/
import proofs.«107012_j21861383537186_1_alg».proof.Proof.Pieces
import proofs.«107012_j21861383537186_1_alg».proof.Proof.Binarize
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.KernelIdeal.Pieces Cert.Binarize
open Idealize.ShloMosaic Idealize.ShloMosaic.ValueIdx

/-! ## The matrix product's operand indices -/

/-- The first operand is read on the output's row … -/
theorem lhs_row (j : S1024x1024.Idx) (k : dot_S1024x2048_S1024x2048_S1024x1024_1_1_0_0_n_n.contr.Idx) :
    (dot_S1024x2048_S1024x2048_S1024x1024_1_1_0_0_n_n.lhsIdx j k 0).val = (j 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
/-- … and at the contraction index; -/
theorem lhs_col (j : S1024x1024.Idx) (k : dot_S1024x2048_S1024x2048_S1024x1024_1_1_0_0_n_n.contr.Idx) :
    (dot_S1024x2048_S1024x2048_S1024x1024_1_1_0_0_n_n.lhsIdx j k 1).val = (k ⟨0, by decide⟩).val :=
  dot_S1024x2048_S1024x2048_S1024x1024_1_1_0_0_n_n.lhsIdx_val_of_single rfl j k
/-- the second operand is read on the row the output's COLUMN names … -/
theorem rhs_row (j : S1024x1024.Idx) (k : dot_S1024x2048_S1024x2048_S1024x1024_1_1_0_0_n_n.contr.Idx) :
    (dot_S1024x2048_S1024x2048_S1024x1024_1_1_0_0_n_n.rhsIdx j k 0).val = (j 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
/-- … and at the contraction index. -/
theorem rhs_col (j : S1024x1024.Idx) (k : dot_S1024x2048_S1024x2048_S1024x1024_1_1_0_0_n_n.contr.Idx) :
    (dot_S1024x2048_S1024x2048_S1024x1024_1_1_0_0_n_n.rhsIdx j k 1).val = (k ⟨0, by decide⟩).val :=
  dot_S1024x2048_S1024x2048_S1024x1024_1_1_0_0_n_n.rhsIdx_val_of_single rfl j k

/-! ## The three stored values at an entry -/

/-- The reset stores zero everywhere. -/
theorem zero_apply (j : S1024x1024.Idx) : k0_pay1 (F := Ideal) j = 0 := by
  unfold k0_pay1
  rw [shapeCast_self]
  exact Ideal.ofBits_zero_f32

/-- One accumulation step at entry `(p, q)`: the accumulator's entry plus the half product's. -/
theorem accumulate_apply (x w : Vec Ideal S1024x2048 .f32) (acc : Vec Ideal S1024x1024 .f32) (p q : Fin 1024) :
    accumulate (F := Ideal) x w acc (ix2 p q)
      = acc (ix2 p q) + ∑ r : Fin 2048, x (ix2 p r) * bin (w (ix2 q r)) := by
  unfold accumulate k0_pay2
  rw [shapeCast_self, addf_apply]
  refine congrArg (acc (ix2 p q) + ·) ?_
  simp only [matmul]
  rw [Ideal.matmul_constant_zero_apply, ← Equiv.sum_comp (contrEquiv1 dot_S1024x2048_S1024x2048_S1024x1024_1_1_0_0_n_n 2048 rfl rfl).symm]
  refine Finset.sum_congr rfl fun r _ => ?_
  have hk := contrEquiv1_symm_val dot_S1024x2048_S1024x2048_S1024x1024_1_1_0_0_n_n 2048 rfl rfl r
  have el : dot_S1024x2048_S1024x2048_S1024x1024_1_1_0_0_n_n.lhsIdx (ix2 p q) ((contrEquiv1 dot_S1024x2048_S1024x2048_S1024x1024_1_1_0_0_n_n 2048 rfl rfl).symm r) = ix2 p r := funext fun a => Fin.ext (by
    match a with
    | ⟨0, _⟩ => exact lhs_row _ _
    | ⟨1, _⟩ => exact (lhs_col _ _).trans hk)
  have er : dot_S1024x2048_S1024x2048_S1024x1024_1_1_0_0_n_n.rhsIdx (ix2 p q) ((contrEquiv1 dot_S1024x2048_S1024x2048_S1024x1024_1_1_0_0_n_n 2048 rfl rfl).symm r) = ix2 q r := funext fun a => Fin.ext (by
    match a with
    | ⟨0, _⟩ => exact rhs_row _ _
    | ⟨1, _⟩ => exact (rhs_col _ _).trans hk)
  rw [el, er]
  exact congrArg (x (ix2 p r) * ·) (select_gt_zero (w (ix2 q r)))

/-- The final store at entry `(p, q)`: the accumulator's entry plus the bias row's entry `q`. -/
theorem bias_add_apply (a : Vec Ideal S1024x1024 .f32) (b : Vec Ideal S1x1024 .f32) (p q : Fin 1024) :
    k0_pay3 (F := Ideal) a b (ix2 p q) = a (ix2 p q) + b (ix2 (0 : Fin 1) q) := by
  unfold k0_pay3
  rw [shapeCast_self, addf_apply, broadcastTo_1b_ab_apply]

/-- The output block stored after the two points of one output block, at entry `(p, q)`: zero, plus the
    first point's half product, plus the second's, plus the bias. -/
theorem block_apply (xA wA xB wB : Vec Ideal S1024x2048 .f32) (b : Vec Ideal S1x1024 .f32) (p q : Fin 1024) :
    k0_pay3 (F := Ideal) (accumulate xB wB (accumulate xA wA (k0_pay1 (F := Ideal)))) b (ix2 p q)
      = ((0 + ∑ r : Fin 2048, xA (ix2 p r) * bin (wA (ix2 q r))) + ∑ r : Fin 2048, xB (ix2 p r) * bin (wB (ix2 q r)))
        + b (ix2 (0 : Fin 1) q) := by
  rw [bias_add_apply, accumulate_apply, accumulate_apply, zero_apply]

end Cert.KernelIdeal.Payload

end
-- ==== Proof.Result.lean ====
/-
  What the kernel's run leaves in the result array.

  The grid has 8 × 4 × 2 points, the last coordinate the contraction half, so points come in pairs: an even
  point `t - 1` (first half) and the odd point `t` after it (second half) share the row block `t / 8` and
  the output-feature block `t / 2 mod 4`. After the even point the accumulator holds the first half product
  over zero; at the odd point the second half product is added, and the accumulator plus the bias row is
  stored as the output block, which is written back there and only there. Entry `(p, q)` of that block is
  `((0 + ∑ low half) + ∑ high half) + bias` at row `1024 · (t / 8) + p` and output feature
  `1024 · (t / 2 mod 4) + q`, which is `G` there; the 32 written-back blocks tile the array, so the array
  ends at `G` of the three arguments.
-/
import proofs.«107012_j21861383537186_1_alg».proof.Proof.Gen.KernelIdeal.Value
import proofs.«107012_j21861383537186_1_alg».proof.Proof.Payload
import proofs.«107012_j21861383537186_1_alg».proof.Proof.Spec
import Idealize.ShloMosaic.Lib.Pipeline.Value
import Idealize.ShloMosaic.Lib.StableHlo.Run
import Idealize.ShloMosaic.Lib.ValueLayout

noncomputable section

namespace Cert.KernelIdeal.Result

open Cert.KernelIdeal Cert.KernelIdeal.Gen Cert.KernelIdeal.Pieces Cert.KernelIdeal.Payload Cert.Spec Cert.Binarize
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arguments and the windows' blocks, at their literal types -/

/-- The three argument arrays as launched. -/
abbrev argX (c : Dev nD) : SX.Idx → EReal := m ((c : Thread nD τ).loc main_arg0)
abbrev argW (c : Dev nD) : SW.Idx → EReal := m ((c : Thread nD τ).loc main_arg1)
abbrev argB (c : Dev nD) : SB.Idx → EReal := m ((c : Thread nD τ).loc main_arg2)

/-- The input's, the weight's and the bias row's block at a point. -/
abbrev xblk (c : Dev nD) (t : Fin cfg0.N) : Vec Ideal S1024x2048 .f32 := iblk m c 0 t
abbrev wblk (c : Dev nD) (t : Fin cfg0.N) : Vec Ideal S1024x2048 .f32 := iblk m c 1 t
abbrev bblk (c : Dev nD) (t : Fin cfg0.N) : Vec Ideal S1x1024 .f32 := iblk m c 2 t

/-- Which block each window is on at point `t`: the row block is `t / 8`, the output-feature block
    `t / 2 mod 4`, the contraction half `t mod 2`. -/
theorem idx_facts : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-! ## The blocks read at an entry -/

/-- The input block's entry `(p, r)` is the input at row `1024 · (t / 8) + p`, column `2048 · (t mod 2) + r`. -/
theorem xblk_apply (c : Dev nD) (t : Fin cfg0.N) (p : Fin 1024) (r : Fin 2048) (n : Fin 8192) (k : Fin 4096)
    (hn : n.val = t.val / 8 * 1024 + p.val) (hk : k.val = t.val % 2 * 2048 + r.val) :
    xblk m c t (ix2 p r) = argX m c (xAt n k) := by
  obtain ⟨e0, e1, -⟩ := idx_facts t
  show V m c main_arg0 (((cfg0.win 0).blk t).view.emb (ix2 p r)) = _
  rw [V_main_arg0]
  refine congrArg (m ((c : Thread nD τ).loc main_arg0)) (funext fun a => Fin.ext ?_)
  match a with
  | ⟨0, _⟩ => show win0_0.index t (0 : Fin 2) * 1024 + 1 * p.val = n.val; omega
  | ⟨1, _⟩ => show win0_0.index t (1 : Fin 2) * 2048 + 1 * r.val = k.val; omega

/-- The weight block's entry `(q, r)` is the weight at output feature `1024 · (t / 2 mod 4) + q`, column
    `2048 · (t mod 2) + r`. -/
theorem wblk_apply (c : Dev nD) (t : Fin cfg0.N) (q : Fin 1024) (r : Fin 2048) (o : Fin 4096) (k : Fin 4096)
    (ho : o.val = t.val / 2 % 4 * 1024 + q.val) (hk : k.val = t.val % 2 * 2048 + r.val) :
    wblk m c t (ix2 q r) = argW m c (wAt o k) := by
  obtain ⟨-, -, e0, e1, -⟩ := idx_facts t
  show V m c main_arg1 (((cfg0.win 1).blk t).view.emb (ix2 q r)) = _
  rw [V_main_arg1]
  refine congrArg (m ((c : Thread nD τ).loc main_arg1)) (funext fun a => Fin.ext ?_)
  match a with
  | ⟨0, _⟩ => show win0_1.index t (0 : Fin 2) * 1024 + 1 * q.val = o.val; omega
  | ⟨1, _⟩ => show win0_1.index t (1 : Fin 2) * 2048 + 1 * r.val = k.val; omega

/-- The bias window's array is the bias given a leading unit axis before the launch. -/
theorem bias_array (c : Dev nD) :
    (V m c main_v0 : S1x4096.Idx → EReal) = shapeCast S1x4096 (argB m c) shapeCasts_S4096_S1x4096 := by
  dsimp only [V, hostOps0]
  after_results
  rfl

/-- The bias row block's entry `q` is the bias at output feature `1024 · (t / 2 mod 4) + q`. -/
theorem bblk_apply (c : Dev nD) (t : Fin cfg0.N) (q : Fin 1024) (o : Fin 4096)
    (ho : o.val = t.val / 2 % 4 * 1024 + q.val) :
    bblk m c t (ix2 (0 : Fin 1) q) = argB m c (bAt o) := by
  obtain ⟨-, -, -, -, e0, e1, -⟩ := idx_facts t
  show V m c main_v0 (((cfg0.win 2).blk t).view.emb (ix2 (0 : Fin 1) q)) = _
  have he : ((cfg0.win 2).blk t).view.emb (ix2 (0 : Fin 1) q) = ix2 (0 : Fin 1) o := funext fun a => Fin.ext (by
    match a with
    | ⟨0, _⟩ => show win0_2.index t (0 : Fin 2) * 1 + 1 * 0 = 0; omega
    | ⟨1, _⟩ => show win0_2.index t (1 : Fin 2) * 1024 + 1 * q.val = o.val; omega)
  rw [he, bias_array, shapeCast_a_1a_apply]

/-! ## What the two points of a pair leave -/

/-- After an even point the accumulator holds its half product over the zero block. -/
theorem scratch_even (c : Dev nD) (t : Fin cfg0.N) (h0 : t.val % 2 = 0) :
    (outsAt0 m c t.val t.isLt).2 = accumulate (xblk m c t) (wblk m c t) (k0_pay1 (F := Ideal)) := by
  have h1 : ¬t.val % 2 = 1 := by omega
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At an odd point the output's staging buffer ends holding both half products over zero, plus the bias
    row: the point's own blocks over the blocks of the even point `t'` just before it. -/
theorem out_odd (c : Dev nD) (t t' : Fin cfg0.N) (h1 : t.val % 2 = 1) (hp : t'.val = t.val - 1) :
    (outsAt0 m c t.val t.isLt).1
      = k0_pay3 (F := Ideal) (accumulate (xblk m c t) (wblk m c t) (accumulate (xblk m c t') (wblk m c t') (k0_pay1 (F := Ideal)))) (bblk m c t) := by
  have h0 : ¬t.val % 2 = 0 := by omega
  obtain ⟨n', hn'⟩ := t'
  dsimp only at hp
  subst hp
  rw [outsAt0_B m c t h0 h1]
  dsimp only
  refine (output_second (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans ?_
  exact congrArg (fun s => k0_pay3 (F := Ideal) (accumulate (xblk m c t) (wblk m c t) s) (bblk m c t))
    (scratch_even m c ⟨t.val - 1, hn'⟩ (by show (t.val - 1) % 2 = 0; omega))

/-! ## The written-back block is a block of `G` -/

/-- Entry `(p, q)` of what an odd point stores is `G` at the row and output feature the block's position gives. -/
theorem entry (c : Dev nD) (t t' : Fin cfg0.N) (h1 : t.val % 2 = 1) (hp : t'.val = t.val - 1) (p q : Fin 1024)
    (n : Fin 8192) (o : Fin 4096) (hn : n.val = t.val / 8 * 1024 + p.val) (ho : o.val = t.val / 2 % 4 * 1024 + q.val) :
    k0_pay3 (F := Ideal) (accumulate (xblk m c t) (wblk m c t) (accumulate (xblk m c t') (wblk m c t') (k0_pay1 (F := Ideal)))) (bblk m c t) (ix2 p q)
      = G (argX m c) (argW m c) (argB m c) (outAt n o) := by
  rw [block_apply]
  have e1 : ∀ r : Fin 2048, xblk m c t' (ix2 p r) * bin (wblk m c t' (ix2 q r)) = term (argX m c) (argW m c) n o (lo r) := fun r => by
    rw [xblk_apply m c t' p r n (lo r) (by omega) (by show r.val = _; omega),
      wblk_apply m c t' q r o (lo r) (by omega) (by show r.val = _; omega)]
    rfl
  have e2 : ∀ r : Fin 2048, xblk m c t (ix2 p r) * bin (wblk m c t (ix2 q r)) = term (argX m c) (argW m c) n o (hi r) := fun r => by
    rw [xblk_apply m c t p r n (hi r) hn (by show 2048 + r.val = _; omega),
      wblk_apply m c t q r o (hi r) ho (by show 2048 + r.val = _; omega)]
    rfl
  rw [Finset.sum_congr rfl (fun r _ => e1 r), Finset.sum_congr rfl (fun r _ => e2 r), bblk_apply m c t q o ho]
  exact entry_eq (argX m c) (argW m c) (argB m c) n o

/-- The same at any index `j` of the block. -/
theorem entry_at (c : Dev nD) (t t' : Fin cfg0.N) (h1 : t.val % 2 = 1) (hp : t'.val = t.val - 1) (j : S1024x1024.Idx)
    (n : Fin 8192) (o : Fin 4096) (hn : n.val = t.val / 8 * 1024 + (j 0).val) (ho : o.val = t.val / 2 % 4 * 1024 + (j 1).val) :
    k0_pay3 (F := Ideal) (accumulate (xblk m c t) (wblk m c t) (accumulate (xblk m c t') (wblk m c t') (k0_pay1 (F := Ideal)))) (bblk m c t) j
      = G (argX m c) (argW m c) (argB m c) (outAt n o) := by
  rw [eq_ix2 j]
  exact entry m c t t' h1 hp (j 0) (j 1) n o hn ho

/-- WHAT AN ODD POINT WRITES BACK is its block of `G` of the three arguments. -/
theorem flushed_eq (c : Dev nD) (t : Fin cfg0.N) (hf : (cfg0.win 3).flush t = true) :
    (dats m 0 c).flushed 3 t = ((cfg0.win 3).blk t).view.read (Elt Ideal) (G (argX m c) (argW m c) (argB m c)) := by
  have h1 : t.val % 2 = 1 := (flush0_3 t).mp hf
  have hlt : t.val < 64 := lt_of_lt_of_eq t.isLt (show cfg0.N = 64 from N_0)
  obtain ⟨-, -, -, -, -, -, e0, e1⟩ := idx_facts t
  rw [Cert.KernelIdeal.Value.flushed3, out_odd m c t ⟨t.val - 1, Nat.lt_of_le_of_lt (Nat.sub_le _ _) t.isLt⟩ h1 rfl]
  funext y
  have hy0 : (y 0).val < 1024 := (y 0).isLt
  have hy1 : (y 1).val < 1024 := (y 1).isLt
  have hemb : ((cfg0.win 3).blk t).view.emb y
      = outAt ⟨t.val / 8 * 1024 + (y 0).val, by omega⟩ ⟨t.val / 2 % 4 * 1024 + (y 1).val, by omega⟩ := funext fun a => Fin.ext (by
    match a with
    | ⟨0, _⟩ => show win0_3.index t (0 : Fin 2) * 1024 + 1 * (y 0).val = t.val / 8 * 1024 + (y 0).val; omega
    | ⟨1, _⟩ => show win0_3.index t (1 : Fin 2) * 1024 + 1 * (y 1).val = t.val / 2 % 4 * 1024 + (y 1).val; omega)
  show k0_pay3 (F := Ideal) _ _ y = G (argX m c) (argW m c) (argB m c) (((cfg0.win 3).blk t).view.emb y)
  rw [hemb]
  exact entry_at m c t _ h1 rfl y _ _ rfl rfl

/-! ## The written-back blocks tile the array -/

/-- An index is in point `t`'s output block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every index of the result lies in the block of an odd point: the one of its row block and its
    output-feature block. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 64 := N_0
  have hb : ((i 0).val / 1024 * 4 + (i 1).val / 1024) * 2 + 1 < cfg0.N := by rw [hN]; omega
  obtain ⟨-, -, -, -, -, -, e0, e1⟩ := idx_facts ⟨((i 0).val / 1024 * 4 + (i 1).val / 1024) * 2 + 1, hb⟩
  dsimp only at e0 e1
  refine ⟨⟨((i 0).val / 1024 * 4 + (i 1).val / 1024) * 2 + 1, hb⟩, (flush0_3 _).mpr (by dsimp only; omega), ?_⟩
  rw [mem_blk]
  intro a
  match a with
  | ⟨0, _⟩ =>
    show win0_3.index _ (0 : Fin 2) * 1024 ≤ (i 0).val ∧ (i 0).val < win0_3.index _ (0 : Fin 2) * 1024 + 1024
    omega
  | ⟨1, _⟩ =>
    show win0_3.index _ (1 : Fin 2) * 1024 ≤ (i 1).val ∧ (i 1).val < win0_3.index _ (1 : Fin 2) * 1024 + 1024
    omega

/-- So the result array ends at `G` of the three arguments. -/
theorem final (c : Dev nD) : (dats m 0 c).arrAt 3 cfg0.N = G (argX m c) (argW m c) (argB m c) :=
  (dats m 0 c).arrAt_eq_of_cover 3 (G (argX m c) (argW m c) (argB m c)) (flushed_eq m c) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v1) = G (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Result

end
-- ==== Proof.lean ====
/-
  A linear layer with binarised weights: `out = X · bin(W)ᵀ + bias`, X of 8192 × 4096, W of 4096 × 4096
  stored output-feature first, `bin` one above zero and zero elsewhere.

  The reference binarises by `sign (max 0 w)`, transposes, contracts the whole axis of 4096 at once and
  adds the bias along the rows. The kernel walks an 8 × 4 × 2 grid: per output block of 1024 × 1024 it
  contracts the axis in two halves of 2048 into an accumulator (set to zero at the first half), binarising
  each weight block by selecting between one and zero on `w > 0`, and at the second half stores the
  accumulator plus the bias row. On the extended reals both are the one function `G` of Proof/Spec.lean at
  every entry:

    * `sign (max 0 w)` and the selection on `w > 0` are the same function of `w`, infinities included
      (Proof/Binarize.lean);
    * the sum over 4096 indices is the sum over the low 2048 plus the sum over the high 2048, and adding to
      zero changes nothing: commutative-monoid laws only, so the finiteness of the inputs is never used
      (Proof/Spec.lean);
    * the reference's stages read at an index give `G` (Proof/RefIsSpec.lean);
    * each grid point's stores read back as values (Proof/Pieces.lean), those values at an entry
      (Proof/Payload.lean), and the written-back blocks, which tile the result array, as blocks of `G`
      (Proof/Result.lean).

  The ideal pass rewrote nothing, so the kernel's idealisation is its own text and that conjunct is trivial.
-/
import proofs.«107012_j21861383537186_1_alg».proof.Defs
import proofs.«107012_j21861383537186_1_alg».proof.Proof.Gen.Kernel
import proofs.«107012_j21861383537186_1_alg».proof.Proof.Gen.Kernel.Skeleton
import proofs.«107012_j21861383537186_1_alg».proof.Proof.Gen.Kernel.Launch
import proofs.«107012_j21861383537186_1_alg».proof.Proof.Gen.Kernel.Points
import proofs.«107012_j21861383537186_1_alg».proof.Proof.Gen.Kernel.Frame
import proofs.«107012_j21861383537186_1_alg».proof.Proof.Gen.KernelIdeal
import proofs.«107012_j21861383537186_1_alg».proof.Proof.Gen.KernelIdeal.Skeleton
import proofs.«107012_j21861383537186_1_alg».proof.Proof.Gen.KernelIdeal.Launch
import proofs.«107012_j21861383537186_1_alg».proof.Proof.Gen.KernelIdeal.Points
import proofs.«107012_j21861383537186_1_alg».proof.Proof.Gen.KernelIdeal.Frame
import proofs.«107012_j21861383537186_1_alg».proof.Proof.Gen.ReferenceIdeal
import proofs.«107012_j21861383537186_1_alg».proof.Proof.Gen.Pre_finite_inputs
import proofs.«107012_j21861383537186_1_alg».proof.Proof.Gen.KernelIdeal.Value
import proofs.«107012_j21861383537186_1_alg».proof.Proof.Gen.ReferenceIdeal.Run
import proofs.«107012_j21861383537186_1_alg».proof.Proof.Gen.ReferenceIdeal.Read
import Idealize.ShloMosaic.Adequacy
import Idealize.ShloMosaic.Init
import proofs.«107012_j21861383537186_1_alg».proof.Proof.RefIsSpec
import proofs.«107012_j21861383537186_1_alg».proof.Proof.Result

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is ten host operations in a row: it runs, and writes none of its arguments. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- From arguments that agree, the kernel's result array ends at `G` of them (the blocks it writes back tile
    the array, each a block of `G`) and the reference's last stage is `G` of them. -/
theorem algebraic : Cert.algebraic_KernelIdeal_ReferenceIdeal := by
  intro m ρ m' ρ' _ hagree
  refine ⟨fun c => Cert.Spec.G (Cert.KernelIdeal.Result.argX m c) (Cert.KernelIdeal.Result.argW m c) (Cert.KernelIdeal.Result.argB m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.RefIsSpec.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
